-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Pieces.lean ====
/-
  What each control case of the Gram-matrix kernel leaves in the accumulator and in the output block.

  The body keeps a 1024×1024 accumulator across the eight grid points of one reduction run. Every point stores
  `acc + a · bᵀ` into it, where `a` and `b` are the point's 1024×512 blocks of the two arguments; the first point
  of a run zeroes the accumulator first, and the last point copies the accumulator, after its own update, into the
  output block. Each case's stores are whole-buffer stores, so what a buffer ends holding is the last store's payload:
  the update payload over the zero payload (first point), the update payload over what the point before left (the
  other points), and for the output block the same update payload read back from the accumulator (last point).
-/
import proofs.«122598_j58720792871620_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of a whole-buffer access. -/
theorem origin : (![0, 0] : Fin 2 → Nat) = fun _ => 0 := funext fun a => by fin_cases a <;> rfl

/-- First point of a run: the accumulator ends at the update of the ZERO payload by the point's two blocks. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .f32) (x1 : Vec F S1024x512 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) origin]
  simp only [View.readCov_unit_zero (S := S1024x1024) _ origin, View.readAt_eq_ld, harg3.read_unread, harg4.read_unread,
    View.ld_unit_zero (S := S1024x512) origin]

/-- A middle point of a run: the accumulator ends at the update of what the point before left. -/
theorem acc_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .f32) (x1 : Vec F S1024x512 .f32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero origin]
  simp only [View.readAt_eq_ld, harg3.read_unread, harg4.read_unread, harg6.read_unread,
    View.ld_unit_zero (S := S1024x512) origin, View.ld_unit_zero (S := S1024x1024) origin]

/-- The last point of a run: the accumulator likewise, -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S1024x512 .f32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread,
    View.ld_unit_zero (S := S1024x512) origin, View.ld_unit_zero (S := S1024x1024) origin]

/-- and the output block is the accumulator's new contents, read back after the update. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .f32) (x1 : Vec F S1024x512 .f32) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero origin]
  simp only [View.readCov_unit_zero (S := S1024x1024) _ origin, View.readAt_eq_ld, harg3.read_unread, harg4.read_unread,
    harg6.read_unread, View.ld_unit_zero (S := S1024x512) origin, View.ld_unit_zero (S := S1024x1024) origin]

end Cert.KernelIdeal.Pieces

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«122598_j58720792871620_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.Payload.lean ====
/-
  The kernel's two payloads at the ideal instance, entry by entry.

  At the ideal instance a narrowing to bf16 is the identity and the matrix unit's product into a zero accumulator is
  the exact sum, so the update payload `acc + a · bᵀ` of a 1024×512 block `a`, a 1024×512 block `b` and a
  1024×1024 accumulator is, at the entry `(p, q)`, `acc (p, q) + ∑ e < 512, a (p, e) * b (q, e)`; the zero payload is
  `0` at every entry.
-/
import proofs.«122598_j58720792871620_1_alg».proof.Proof.Gen.KernelIdeal.Skeleton
import proofs.«122598_j58720792871620_1_alg».proof.Proof.LibPlainDotAny
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx

/-- The kernel's dimension record is the plain 1024×512 by 512×1024 product's. -/
theorem dims_plain : dot_S1024x512_S512x1024_S1024x1024_1_0_0_1_n_n = DotDims.plain 1024 512 1024 := rfl

/-- The zero payload is `0` at every entry. -/
theorem zero_apply (j : S1024x1024.Idx) : k0_pay1 (F := Ideal) j = 0 := by
  unfold k0_pay1
  simp only [shapeCast_self]
  exact Ideal.ofBits_zero_f32

/-- The update payload at the entry `(p, q)`: the accumulator's entry plus the inner product of row `p` of the
    first block with row `q` of the second. -/
theorem update_apply (a b : Vec Ideal S1024x512 .f32) (acc : Vec Ideal S1024x1024 .f32) (p q : Fin 1024) :
    k0_pay2 a b acc (ix2 p q) = acc (ix2 p q) + ∑ e : Fin 512, a (ix2 p e) * b (ix2 q e) := by
  unfold k0_pay2
  simp only [shapeCast_self]
  rw [addf_apply, dims_plain]
  refine congrArg (acc (ix2 p q) + ·) ?_
  refine (PlainDot.matmul_zero_apply_any 1024 512 1024 none _ _ (ix2 p q)).trans ?_
  refine Finset.sum_congr rfl fun e _ => ?_
  show (truncf .bf16 a bitsLt_bf16_f32 : FVec Ideal S1024x512 .bf16) (ix2 p e) * _ = _
  rw [truncf_apply, transpose_ix2_apply, truncf_apply]

end Cert.KernelIdeal.Payload

end
-- ==== Proof.Blocks.lean ====
/-
  The input blocks of the Gram-matrix kernel, read off the argument arrays.

  The grid is 4 × 4 × 8, the last axis fastest, so point `t` is `(I, J, s) = (t / 32, t / 8 % 4, t % 8)`. There the
  first window holds rows `1024·I …` and columns `512·s …` of the first argument, the second window rows `1024·J …`
  and columns `512·s …` of the second argument, and the output window is block `(I, J)` of the result.
-/
import proofs.«122598_j58720792871620_1_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The three index maps at point `t`, decided over the grid. -/
theorem idx_facts : ∀ t : Fin cfg0.N, win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- The grid has 128 points. -/
theorem lt_grid (t : Fin cfg0.N) : t.val < 128 := lt_of_lt_of_eq t.isLt (show cfg0.N = 128 from N_0)

/-- The first window's block at point `t`, at its literal type. -/
abbrev ablk (c : Dev nD) (t : Fin cfg0.N) : Vec F S1024x512 .f32 := iblk m c 0 t
/-- The second window's block at point `t`, at its literal type. -/
abbrev bblk (c : Dev nD) (t : Fin cfg0.N) : Vec F S1024x512 .f32 := iblk m c 1 t

/-- Entry `(p, e)` of the first block is entry `(1024·(t / 32) + p, 512·(t % 8) + e)` of the first argument. -/
theorem ablk_apply (c : Dev nD) (t : Fin cfg0.N) (p : Fin 1024) (e : Fin 512) :
    ablk m c t (ix2 p e) = m ((c : Thread nD τ).loc main_arg0)
      (ix2 ⟨1024 * (t.val / 32) + p.val, by have := lt_grid t; have := p.isLt; omega⟩
        ⟨512 * (t.val % 8) + e.val, by have := e.isLt; omega⟩) := by
  obtain ⟨h0, h1, -⟩ := idx_facts t
  unfold ablk iblk
  rw [View.read_apply]
  show V m c main_arg0 _ = m (c.tc.loc main_arg0) _
  unfold V
  congr 1
  funext a
  apply Fin.ext
  match a with
  | ⟨0, _⟩ => show win0_0.index t 0 * 1024 + 1 * p.val = 1024 * (t.val / 32) + p.val; rw [h0]; omega
  | ⟨1, _⟩ => show win0_0.index t 1 * 512 + 1 * e.val = 512 * (t.val % 8) + e.val; rw [h1]; omega

/-- Entry `(q, e)` of the second block is entry `(1024·(t / 8 % 4) + q, 512·(t % 8) + e)` of the second argument. -/
theorem bblk_apply (c : Dev nD) (t : Fin cfg0.N) (q : Fin 1024) (e : Fin 512) :
    bblk m c t (ix2 q e) = m ((c : Thread nD τ).loc main_arg1)
      (ix2 ⟨1024 * (t.val / 8 % 4) + q.val, by have := q.isLt; omega⟩
        ⟨512 * (t.val % 8) + e.val, by have := e.isLt; omega⟩) := by
  obtain ⟨-, -, h0, h1, -⟩ := idx_facts t
  unfold bblk iblk
  rw [View.read_apply]
  show V m c main_arg1 _ = m (c.tc.loc main_arg1) _
  unfold V
  congr 1
  funext a
  apply Fin.ext
  match a with
  | ⟨0, _⟩ => show win0_1.index t 0 * 1024 + 1 * q.val = 1024 * (t.val / 8 % 4) + q.val; rw [h0]; omega
  | ⟨1, _⟩ => show win0_1.index t 1 * 512 + 1 * e.val = 512 * (t.val % 8) + e.val; rw [h1]; omega

end Cert.KernelIdeal.Blocks

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Spec.lean ====
/-
  The Gram matrix of two 4096×4096 arrays over the extended reals, and its reduction run by run.

  `gram A B (r, c) = ∑ d < 4096, A (r, d) * B (c, d)`. The kernel computes a 1024×1024 block of it in eight steps: at
  grid point `n = 32·I + 8·J + s` it adds to entry `(p, q)` of block `(I, J)` the partial inner product over the
  columns `512·s … 512·s + 511` (`addend`). Addition on the extended reals is commutative and associative, so the
  eight addends of one run sum to the block's entry of `gram`: the sum over 4096 columns is the double sum over 8 runs
  of 512 consecutive columns. No finiteness is needed.
-/
import Idealize.ShloMosaic.Lib.ValueIdx
import proofs.«122598_j58720792871620_1_alg».proof.Proof.LibSumSplit

noncomputable section

open scoped BigOperators

namespace Cert.Gram

open Idealize.ShloMosaic Idealize.ShloMosaic.ValueIdx

/-- A 4096×4096 array of extended reals. -/
abbrev Mat := FVec Ideal ⟨2, ![4096, 4096]⟩ .f32

/-- The Gram matrix: entry `(r, c)` is the inner product of row `r` of `A` with row `c` of `B`. -/
def gram (A B : Mat) : Mat := fun j => ∑ d : Fin 4096, A (ix2 (j 0) d) * B (ix2 (j 1) d)

/-- What the reduction step at grid point `n` adds to entry `y` of its output block: the inner product over the
    512 columns of step `n % 8`, of row `1024·(n / 32) + y₀` of `A` with row `1024·(n / 8 % 4) + y₁` of `B` (zero past
    the grid, where it is never used). -/
def addend (A B : Mat) (n : ℕ) (y : (⟨2, ![1024, 1024]⟩ : Shape).Idx) : Ideal .f32 :=
  if h : n < 128 then
    ∑ e : Fin 512,
      A (ix2 ⟨1024 * (n / 32) + (y 0).val, by have := idx2_lt0 y; omega⟩ ⟨512 * (n % 8) + e.val, by have := e.isLt; omega⟩)
        * B (ix2 ⟨1024 * (n / 8 % 4) + (y 1).val, by have := idx2_lt1 y; omega⟩ ⟨512 * (n % 8) + e.val, by have := e.isLt; omega⟩)
  else 0

/-- Entries at equal coordinates are equal. -/
theorem entry_congr (A : Mat) {r r' c c' : Fin 4096} (hr : r.val = r'.val) (hc : c.val = c'.val) :
    A (ix2 r c) = A (ix2 r' c') := by
  rw [Fin.ext hr, Fin.ext hc]

/-- THE REGROUPING: the eight addends of run `u` (points `8u … 8u + 7`, output block `(u / 4, u % 4)`) sum to the
    block's entry of the Gram matrix. -/
theorem sum_addend (A B : Mat) (u : ℕ) (hu : u < 16) (y : (⟨2, ![1024, 1024]⟩ : Shape).Idx) :
    ∑ s ∈ Finset.range 8, addend A B (8 * u + s) y
      = gram A B (ix2 ⟨1024 * (u / 4) + (y 0).val, by have := idx2_lt0 y; omega⟩
          ⟨1024 * (u % 4) + (y 1).val, by have := idx2_lt1 y; omega⟩) := by
  unfold gram
  rw [SumSplit.sum_split 8 512 4096 rfl, ← Fin.sum_univ_eq_sum_range (fun s => addend A B (8 * u + s) y) 8]
  refine Finset.sum_congr rfl fun s _ => ?_
  have hs := s.isLt
  unfold addend
  rw [dif_pos (by omega)]
  refine Finset.sum_congr rfl fun e _ => ?_
  have he := e.isLt
  exact congrArg₂ (· * ·)
    (entry_congr A (by show 1024 * ((8 * u + s.val) / 32) + (y 0).val = 1024 * (u / 4) + (y 0).val; omega)
      (by show 512 * ((8 * u + s.val) % 8) + e.val = 512 * s.val + e.val; omega))
    (entry_congr B (by show 1024 * ((8 * u + s.val) / 8 % 4) + (y 1).val = 1024 * (u % 4) + (y 1).val; omega)
      (by show 512 * ((8 * u + s.val) % 8) + e.val = 512 * s.val + e.val; omega))

end Cert.Gram

end
-- ==== Proof.Fold.lean ====
/-
  The accumulator of the Gram-matrix kernel after the last point of a reduction run.

  A run is the eight consecutive grid points `8u … 8u + 7` that share one output block. Its first point leaves
  `0 + addend (8u)` in the accumulator, each later point adds its own addend to what the point before left, so after
  the run's last point the accumulator holds `0 + ∑ s < 8, addend (8u + s)`: by the regrouping of the 4096-term inner
  product into eight runs of 512 terms, the output block's entries of the Gram matrix.
-/
import proofs.«122598_j58720792871620_1_alg».proof.Proof.Gen.KernelIdeal.Value
import proofs.«122598_j58720792871620_1_alg».proof.Proof.Pieces
import proofs.«122598_j58720792871620_1_alg».proof.Proof.Payload
import proofs.«122598_j58720792871620_1_alg».proof.Proof.Blocks
import proofs.«122598_j58720792871620_1_alg».proof.Proof.Spec

noncomputable section

open scoped BigOperators

namespace Cert.KernelIdeal.Fold

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The two argument arrays as matrices of extended reals. -/
abbrev argA (c : Dev nD) : Gram.Mat := m ((c : Thread nD τ).loc main_arg0)
abbrev argB (c : Dev nD) : Gram.Mat := m ((c : Thread nD τ).loc main_arg1)

/-- The inner product of row `p` of the first block with row `q` of the second, at point `t`, is the point's addend
    to entry `(p, q)`. -/
theorem block_sum (c : Dev nD) (t : Fin cfg0.N) (p q : Fin 1024) :
    ∑ e : Fin 512, Blocks.ablk m c t (ix2 p e) * Blocks.bblk m c t (ix2 q e)
      = Gram.addend (argA m c) (argB m c) t.val (ix2 p q) := by
  unfold Gram.addend
  rw [dif_pos (Blocks.lt_grid t)]
  refine Finset.sum_congr rfl fun e _ => ?_
  rw [Blocks.ablk_apply, Blocks.bblk_apply]

/-- At the first point of a run the accumulator ends at `0` plus the point's addend, whatever it held. -/
theorem reset_apply (c : Dev nD) (n : ℕ) (h : n < cfg0.N) (hn : n % 8 = 0) (acc : Vec Ideal S1024x1024 .f32)
    (y : S1024x1024.Idx) :
    Value.scAt0_0 m c n h acc y = 0 + Gram.addend (argA m c) (argB m c) n y := by
  obtain ⟨p, q, rfl⟩ : ∃ (p q : Fin 1024), y = ix2 p q := ⟨y 0, y 1, eq_ix2 y⟩
  unfold Value.scAt0_0
  rw [dif_pos hn, dif_neg (by omega), Pieces.acc_first]
  refine (Payload.update_apply _ _ _ p q).trans ?_
  rw [Payload.zero_apply]
  exact congrArg (0 + ·) (block_sum m c ⟨n, h⟩ p q)

/-- At every other point of a run the accumulator ends at what the point before left plus the point's addend. -/
theorem step_apply (c : Dev nD) (n : ℕ) (h : n < cfg0.N) (hn : ¬n % 8 = 0) (acc : Vec Ideal S1024x1024 .f32)
    (y : S1024x1024.Idx) :
    Value.scAt0_0 m c n h acc y = acc y + Gram.addend (argA m c) (argB m c) n y := by
  obtain ⟨p, q, rfl⟩ : ∃ (p q : Fin 1024), y = ix2 p q := ⟨y 0, y 1, eq_ix2 y⟩
  unfold Value.scAt0_0
  rw [dif_neg hn]
  by_cases h1 : n % 8 = 7
  · rw [dif_pos h1, Pieces.acc_last]
    exact (Payload.update_apply _ _ acc p q).trans (congrArg (acc (ix2 p q) + ·) (block_sum m c ⟨n, h⟩ p q))
  · rw [dif_neg h1, Pieces.acc_middle]
    exact (Payload.update_apply _ _ acc p q).trans (congrArg (acc (ix2 p q) + ·) (block_sum m c ⟨n, h⟩ p q))

/-- AFTER THE LAST POINT of a run the accumulator holds the output block's entries of the Gram matrix. -/
theorem acc_run (c : Dev nD) (t : Fin cfg0.N) (ht : t.val % 8 = 7) (y : S1024x1024.Idx) :
    (outsAt0 m c t.val t.isLt).2 y
      = Gram.gram (argA m c) (argB m c)
          (ix2 ⟨1024 * (t.val / 32) + (y 0).val, by have := Blocks.lt_grid t; have := idx2_lt0 y; omega⟩
            ⟨1024 * (t.val / 8 % 4) + (y 1).val, by have := idx2_lt1 y; omega⟩) := by
  have hN := Blocks.lt_grid t
  rw [Value.soutsAt0_0_eq m c t]
  rw [Pipeline.accAt_add_apply (fun n h => Value.scAt0_0 m c n h (VS0_0.read (Elt Ideal) VS0_0.junk)) (Value.scAt0_0 m c)
    (fun _ => 0) (Gram.addend (argA m c) (argB m c)) (8 * (t.val / 8)) 7
    (fun h i => reset_apply m c _ h (by omega) _ i)
    (fun n h acc i hb he => step_apply m c n h (by omega) acc i)
    (t.val % 8) (by omega) _ y]
  rw [ht, zero_add, Gram.sum_addend (argA m c) (argB m c) (t.val / 8) (by omega) y]
  refine congrArg (Gram.gram (argA m c) (argB m c)) ?_
  refine congrArg₂ ix2 (Fin.ext ?_) (Fin.ext ?_)
  · show 1024 * (t.val / 8 / 4) + (y 0).val = 1024 * (t.val / 32) + (y 0).val; omega
  · rfl

end Cert.KernelIdeal.Fold

end
-- ==== Proof.Final.lean ====
/-
  The result array of the Gram-matrix kernel after its run.

  The output window is written back at the last point of each reduction run, `t % 8 = 7`, and what is written is the
  accumulator after that point: the entries of the Gram matrix on block `(t / 32, t / 8 % 4)`. The sixteen blocks tile
  the 4096×4096 result — entry `(r, c)` lies in the block written at point `32·(r / 1024) + 8·(c / 1024) + 7` — so the
  result array ends holding the Gram matrix of the two arguments.
-/
import proofs.«122598_j58720792871620_1_alg».proof.Proof.Fold

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the result array holds: the Gram matrix of the two argument arrays. -/
abbrev result (c : Dev nD) : Buf (Elt Ideal) ((c : Thread nD τ).loc main_v0) :=
  Gram.gram (Fold.argA m c) (Fold.argB m c)

/-- WHAT A WRITE-BACK WRITES: at the last point of a run, the output block read off the Gram matrix. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬t.val % 8 = 0 := by omega
  obtain ⟨-, -, -, -, e0, e1⟩ := Blocks.idx_facts t
  rw [Value.flushed2]
  have hout : (outsAt0 m c t.val t.isLt).1 = (outsAt0 m c t.val t.isLt).2 := by
    rw [outsAt0_C m c t h0 h7]; dsimp only; rw [Pieces.out_last, Pieces.acc_last]
  rw [hout]
  funext j
  show (outsAt0 m c t.val t.isLt).2 j = result m c (((cfg0.win 2).blk t).view.emb j)
  rw [Fold.acc_run m c t h7 j]
  refine congrArg (Gram.gram _ _) ?_
  funext a
  apply Fin.ext
  match a with
  | ⟨0, _⟩ => show 1024 * (t.val / 32) + (j 0).val = win0_2.index t 0 * 1024 + 1 * (j 0).val; rw [e0]; omega
  | ⟨1, _⟩ => show 1024 * (t.val / 8 % 4) + (j 1).val = win0_2.index t 1 * 1024 + 1 * (j 1).val; rw [e1]; omega

/-- An entry is in point `t`'s block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE COVER: every entry of the result is in the block some run's last point writes back. -/
theorem cover (i : S4096x4096.Idx) :
    ∃ t : Fin cfg0.N, (cfg0.win 2).flush t = true ∧ i ∈ ((cfg0.win 2).blk t).view.set := by
  have h0 := idx2_lt0 i
  have h1 := idx2_lt1 i
  have hN : cfg0.N = 128 := N_0
  obtain ⟨t, tv⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨-, -, -, -, e0, e1⟩ := Blocks.idx_facts t
  refine ⟨t, (flush0_2 t).mpr (by omega), ?_⟩
  rw [mem_blk]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- THE RESULT ARRAY after the run is the Gram matrix. -/
theorem final (c : Dev nD) : (dats m 0 c).arrAt 2 cfg0.N = result m c :=
  (dats m 0 c).arrAt_eq_of_cover 2 (result m c) (flushed_eq m c) cover

/-- The kernel's run, read: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefValue.lean ====
/-
  The reference's result is the Gram matrix.

  The reference is one contraction of the two arguments over their second axes: at the ideal instance its entry
  `(r, c)` is `∑ d < 4096, A (r, d) * B (c, d)`, which is the definition of `gram`.
-/
import proofs.«122598_j58720792871620_1_alg».proof.Proof.Gen.ReferenceIdeal.Read
import proofs.«122598_j58720792871620_1_alg».proof.Proof.Spec

noncomputable section

open scoped BigOperators

namespace Cert.ReferenceIdeal.RefValue

open Cert.ReferenceIdeal Idealize.ShloMosaic Idealize.ShloMosaic.ValueIdx

/-- The reference's contraction of two arrays is their Gram matrix. -/
theorem result_eq (x0 x1 : (⟨S4096x4096, .f32⟩ : BufTy).Contents (Elt Ideal)) :
    Read.val_main_v0 (F := Ideal) x0 x1 = Gram.gram x0 x1 := by
  funext i
  rw [Read.val_main_v0_apply]
  unfold Gram.gram
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 (i 1) k :=
    funext fun a => Fin.ext (by match a with | ⟨0, _⟩ => rfl | ⟨1, _⟩ => rfl)
  rw [el, er]
  rfl

end Cert.ReferenceIdeal.RefValue

end
-- ==== Proof.lean ====
/-
  The certificate of the Gram-matrix kernel against `jnp.einsum('nd,md->nm')`.

  The kernel computes `out = input_1 · input_2ᵀ` for two 4096×4096 arrays on a 4 × 4 × 8 grid: output block `(I, J)`
  of 1024×1024 entries is accumulated over eight steps `s`, each adding the product of the 1024×512 blocks `(I, s)`
  of `input_1` and `(J, s)` of `input_2` (narrowed to bf16, the second transposed) to an accumulator zeroed at the
  first step and copied to the output block at the last. The reference contracts the two arrays over their second
  axes in one operation.

  Over the extended reals a narrowing is the identity and both products are exact sums, so the kernel's entry
  `(r, c)` is `0 + ∑ s < 8, ∑ e < 512, A (r, 512·s + e) * B (c, 512·s + e)` and the reference's is
  `∑ d < 4096, A (r, d) * B (c, d)`: equal by commutativity and associativity of addition alone (the sum over 4096
  columns regrouped as eight runs of 512), so the precondition is not used. Both are stated as the one function
  `Cert.Gram.gram` of the arguments. The idealization rewrote nothing, so `preserves` is trivial; the kernels' frames
  are the generated ones and the reference's frame is its generated run with the result dropped.
-/
import proofs.«122598_j58720792871620_1_alg».proof.Defs
import proofs.«122598_j58720792871620_1_alg».proof.Proof.Gen.Kernel
import proofs.«122598_j58720792871620_1_alg».proof.Proof.Gen.Kernel.Frame
import proofs.«122598_j58720792871620_1_alg».proof.Proof.Gen.KernelIdeal
import proofs.«122598_j58720792871620_1_alg».proof.Proof.Gen.KernelIdeal.Frame
import proofs.«122598_j58720792871620_1_alg».proof.Proof.Gen.ReferenceIdeal
import proofs.«122598_j58720792871620_1_alg».proof.Proof.Gen.Pre_finite_inputs
import proofs.«122598_j58720792871620_1_alg».proof.Proof.Gen.KernelIdeal.Value
import proofs.«122598_j58720792871620_1_alg».proof.Proof.Gen.ReferenceIdeal.Run
import proofs.«122598_j58720792871620_1_alg».proof.Proof.Gen.ReferenceIdeal.Read
import proofs.«122598_j58720792871620_1_alg».proof.Proof.Final
import proofs.«122598_j58720792871620_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the Gram matrix of the
    arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
